-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S640x512 : S_.BroadcastsInDim S640x512 (![] : Fin 0 → Fin S640x512.rank)
  reducesTo_S640x512_S_d0_1 : S640x512.ReducesTo [0, 1] S_
  bcast_S_S640 : S_.BroadcastsInDim S640 (![] : Fin 0 → Fin S640.rank)
  reducesTo_S640_S_d0 : S640.ReducesTo [0] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x512 .f32) (main_arg5 : FVec F S640 .f32) (main_arg6 : FVec F S1024x640 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x512 .f32 := Host.absf main_arg4
  let main_cst_6 : FVec F S_ .f32 := constant S_ .f32 0x7F800000#32
  let main_v20 : FVec F S640x512 .f32 := broadcastInDim S640x512 ![] bcast_S_S640x512 main_cst_6
  let main_v21 : IVec S640x512 1 := cmpf .olt main_v19 main_v20
  let main_c_7 : IVec S_ 1 := constantI S_ 1 1#1
  let main_v22 : IVec S_ 1 := (fun x v => Host.reduce IntOp.andi x v reducesTo_S640x512_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S1024x640 .f32 := Host.absf main_arg6
  let main_cst_10 : FVec F S_ .f32 := constant S_ .f32 0x7F800000#32
  let main_v30 : FVec F S1024x640 .f32 := broadcastInDim S1024x640 ![] bcast_S_S1024x640 main_cst_10
  let main_v31 : IVec S1024x640 1 := cmpf .olt main_v29 main_v30
  let main_c_11 : IVec S_ 1 := constantI S_ 1 1#1
  let main_v32 : IVec S_ 1 := (fun x v => Host.reduce IntOp.andi x v reducesTo_S1024x640_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S640x512 .f32) (main_arg3 : FVec F S640 .f32) (main_arg4 : FVec F S640x512 .f32) (main_arg5 : FVec F S640 .f32) (main_arg6 : FVec F S1024x640 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S640x512 .f32 := Host.absf main_arg2
  let main_cst_2 : FVec F S_ .f32 := constant S_ .f32 0x7F800000#32
  let main_v10 : FVec F S640x512 .f32 := broadcastInDim S640x512 ![] bcast_S_S640x512 main_cst_2
  let main_v11 : IVec S640x512 1 := cmpf .olt main_v9 main_v10
  let main_c_3 : IVec S_ 1 := constantI S_ 1 1#1
  let main_v12 : IVec S_ 1 := (fun x v => Host.reduce IntOp.andi x v reducesTo_S640x512_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S512x640 : Shape := ⟨2, ![512, 640]⟩
abbrev S640x1024 : Shape := ⟨2, ![640, 1024]⟩
abbrev S4x256x640 : Shape := ⟨3, ![4, 256, 640]⟩
abbrev S1x256x512 : Shape := ⟨3, ![1, 256, 512]⟩
abbrev S1x256x640 : Shape := ⟨3, ![1, 256, 640]⟩
abbrev S256x512 : Shape := ⟨2, ![256, 512]⟩
abbrev S256x640 : Shape := ⟨2, ![256, 640]⟩
abbrev S1x640 : Shape := ⟨2, ![1, 640]⟩
abbrev S4x64x640 : Shape := ⟨3, ![4, 64, 640]⟩
abbrev S1x64x512 : Shape := ⟨3, ![1, 64, 512]⟩
abbrev S1x64x640 : Shape := ⟨3, ![1, 64, 640]⟩
abbrev S64x512 : Shape := ⟨2, ![64, 512]⟩
abbrev S64x640 : Shape := ⟨2, ![64, 640]⟩
abbrev S4x256x64x1024 : Shape := ⟨4, ![4, 256, 64, 1024]⟩
abbrev S1x32x640 : Shape := ⟨3, ![1, 32, 640]⟩
abbrev S1x32x64x1024 : Shape := ⟨4, ![1, 32, 64, 1024]⟩
abbrev S32x640 : Shape := ⟨2, ![32, 640]⟩
abbrev S32x1x640 : Shape := ⟨3, ![32, 1, 640]⟩
abbrev S32x64x640 : Shape := ⟨3, ![32, 64, 640]⟩
abbrev S2048x640 : Shape := ⟨2, ![2048, 640]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 17
  | .vmem => 20
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S512x640, .f32⟩
  | .hbm, ⟨9, _⟩ => ⟨S512x640, .bf16⟩
  | .hbm, ⟨10, _⟩ => ⟨S512x640, .f32⟩
  | .hbm, ⟨11, _⟩ => ⟨S512x640, .bf16⟩
  | .hbm, ⟨12, _⟩ => ⟨S640x1024, .f32⟩
  | .hbm, ⟨13, _⟩ => ⟨S640x1024, .bf16⟩
  | .hbm, ⟨14, _⟩ => ⟨S4x256x640, .f32⟩
  | .hbm, ⟨15, _⟩ => ⟨S4x64x640, .f32⟩
  | .hbm, ⟨16, _⟩ => ⟨S4x256x64x1024, .f32⟩
  | .local _ .vmem, ⟨0, _⟩ => ⟨S1x256x512, .f32⟩
  | .local _ .vmem, ⟨1, _⟩ => ⟨S1x256x512, .f32⟩
  | .local _ .vmem, ⟨2, _⟩ => ⟨S512x640, .bf16⟩
  | .local _ .vmem, ⟨3, _⟩ => ⟨S640, .f32⟩
  | .local _ .vmem, ⟨4, _⟩ => ⟨S1x256x640, .f32⟩
  | .local _ .vmem, ⟨5, _⟩ => ⟨S1x256x640, .f32⟩
  | .local _ .vmem, ⟨6, _⟩ => ⟨S1x64x512, .f32⟩
  | .local _ .vmem, ⟨7, _⟩ => ⟨S1x64x512, .f32⟩
  | .local _ .vmem, ⟨8, _⟩ => ⟨S512x640, .bf16⟩
  | .local _ .vmem, ⟨9, _⟩ => ⟨S640, .f32⟩
  | .local _ .vmem, ⟨10, _⟩ => ⟨S1x64x640, .f32⟩
  | .local _ .vmem, ⟨11, _⟩ => ⟨S1x64x640, .f32⟩
  | .local _ .vmem, ⟨12, _⟩ => ⟨S1x32x640, .f32⟩
  | .local _ .vmem, ⟨13, _⟩ => ⟨S1x32x640, .f32⟩
  | .local _ .vmem, ⟨14, _⟩ => ⟨S1x64x640, .f32⟩
  | .local _ .vmem, ⟨15, _⟩ => ⟨S1x64x640, .f32⟩
  | .local _ .vmem, ⟨16, _⟩ => ⟨S640x1024, .bf16⟩
  | .local _ .vmem, ⟨17, _⟩ => ⟨S1024, .f32⟩
  | .local _ .vmem, ⟨18, _⟩ => ⟨S1x32x64x1024, .f32⟩
  | .local _ .vmem, ⟨19, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x640 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S640x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x32x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S640x512_S512x640_1_0 : S640x512.Transposes [1, 0] S512x640
  bitsLt_bf16_f32 : FTy.bits .bf16 < FTy.bits .f32
  transposes_S1024x640_S640x1024_1_0 : S1024x640.Transposes [1, 0] S640x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640_S640_0 : ∀ a, (![0] : Fin 1 → Nat) a + S640.size a ≤ S640.size a
  h_S640 : 0 < S640.numel
  shapeCasts_S640_S1x640 : S640.ShapeCasts S1x640
  broadcasts_S1x640_S256x640 : S1x640.Broadcasts S256x640
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  shapeCasts_S256x640_S1x256x640 : S256x640.ShapeCasts S1x256x640
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S1x640_S64x640 : S1x640.Broadcasts S64x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S64x640_S1x64x640 : S64x640.ShapeCasts S1x64x640
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  shapeCasts_S32x640_S32x1x640 : S32x640.ShapeCasts S32x1x640
  broadcasts_S32x1x640_S32x64x640 : S32x1x640.Broadcasts S32x64x640
  broadcasts_S1x64x640_S32x64x640 : S1x64x640.Broadcasts S32x64x640
  shapeCasts_S32x64x640_S2048x640 : S32x64x640.ShapeCasts S2048x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S256x512_S512x640_S256x640_1_0_0_1_n_n_wf : DotDims.WF S256x512 S512x640 S256x640 [1] [0] [0] [1] [] []
  dot_S64x512_S512x640_S64x640_1_0_0_1_n_n_wf : DotDims.WF S64x512 S512x640 S64x640 [1] [0] [0] [1] [] []
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .bf16 = 32 ∨ (Rect.block (s := S512x640) S512x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640.size a ≤ S640.size a
  hwx0_2 : ∀ i : grid0.Coords, EltTy.bits .f32 = 32 ∨ (Rect.block (s := S640) S640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x640.size a ≤ S4x256x640.size a
  hwx0_3 : ∀ i : grid0.Coords, EltTy.bits .f32 = 32 ∨ (Rect.block (s := S4x256x640) S1x256x640.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x512.size a ≤ S4x64x512.size a
  hwx1_0 : ∀ i : grid1.Coords, EltTy.bits .f32 = 32 ∨ (Rect.block (s := S4x64x512) S1x64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x640.size a ≤ S512x640.size a
  hwx1_1 : ∀ i : grid1.Coords, EltTy.bits .bf16 = 32 ∨ (Rect.block (s := S512x640) S512x640.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640.size a ≤ S640.size a
  hwx1_2 : ∀ i : grid1.Coords, EltTy.bits .f32 = 32 ∨ (Rect.block (s := S640) S640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x640.size a ≤ S4x64x640.size a
  hwx1_3 : ∀ i : grid1.Coords, EltTy.bits .f32 = 32 ∨ (Rect.block (s := S4x64x640) S1x64x640.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x640.size a ≤ S4x256x640.size a
  hwx2_0 : ∀ i : grid2.Coords, EltTy.bits .f32 = 32 ∨ (Rect.block (s := S4x256x640) S1x32x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x640.size a ≤ S4x64x640.size a
  hwx2_1 : ∀ i : grid2.Coords, EltTy.bits .f32 = 32 ∨ (Rect.block (s := S4x64x640) S1x64x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640x1024.size a ≤ S640x1024.size a
  hwx2_2 : ∀ i : grid2.Coords, EltTy.bits .bf16 = 32 ∨ (Rect.block (s := S640x1024) S640x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x64x1024.size a ≤ S4x256x64x1024.size a
  hwx2_4 : ∀ i : grid2.Coords, EltTy.bits .f32 = 32 ∨ (Rect.block (s := S4x256x64x1024) S1x32x64x1024.size (cc2_transform_4 i) (hinb2_4 i)).WholeWords (EltTy.packing .f32)

variable [Facts₀]

def dot_S256x512_S512x640_S256x640_1_0_0_1_n_n : DotDims S256x512 S512x640 S256x640 where
  lhsContracting := [1]
  rhsContracting := [0]
  lhsNonContracting := [0]
  rhsNonContracting := [1]
  lhsBatch := []
  rhsBatch := []
  wf := dot_S256x512_S512x640_S256x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1x32x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S640x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x32x64x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S4x256x640 : Shape := ⟨3, ![4, 256, 640]⟩
abbrev S1x1x640 : Shape := ⟨3, ![1, 1, 640]⟩
abbrev S4x64x640 : Shape := ⟨3, ![4, 64, 640]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S4x256x640, .f32⟩
  | .hbm, ⟨9, _⟩ => ⟨S1x1x640, .f32⟩
  | .hbm, ⟨10, _⟩ => ⟨S4x256x640, .f32⟩
  | .hbm, ⟨11, _⟩ => ⟨S4x256x640, .f32⟩
  | .hbm, ⟨12, _⟩ => ⟨S4x64x640, .f32⟩
  | .hbm, ⟨13, _⟩ => ⟨S1x1x640, .f32⟩
  | .hbm, ⟨14, _⟩ => ⟨S4x64x640, .f32⟩
  | .hbm, ⟨15, _⟩ => ⟨S4x64x640, .f32⟩
  | .hbm, ⟨16, _⟩ => ⟨S4x256x1x640, .f32⟩
  | .hbm, ⟨17, _⟩ => ⟨S4x1x64x640, .f32⟩
  | .hbm, ⟨18, _⟩ => ⟨S4x256x64x640, .f32⟩
  | .hbm, ⟨19, _⟩ => ⟨S4x256x64x640, .f32⟩
  | .hbm, ⟨20, _⟩ => ⟨S4x256x64x640, .f32⟩
  | .hbm, ⟨21, _⟩ => ⟨S4x256x64x640, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x64x640_0_1_2 : S1x1x640.BroadcastsInDim S4x64x640 (![0, 1, 2] : Fin 3 → Fin S4x64x640.rank)
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S640x512_S4x256x640_2_1_01_0_n_n_wf : DotDims.WF S4x256x512 S640x512 S4x256x640 [2] [1] [0, 1] [0] [] []
  dot_S4x64x512_S640x512_S4x64x640_2_1_01_0_n_n_wf : DotDims.WF S4x64x512 S640x512 S4x64x640 [2] [1] [0, 1] [0] [] []
  dot_S4x256x64x640_S1024x640_S4x256x64x1024_3_1_012_0_n_n_wf : DotDims.WF S4x256x64x640 S1024x640 S4x256x64x1024 [3] [1] [0, 1, 2] [0] [] []

variable [Facts₀]

def dot_S4x256x512_S640x512_S4x256x640_2_1_01_0_n_n : DotDims S4x256x512 S640x512 S4x256x640 where
  lhsContracting := [2]
  rhsContracting := [1]
  lhsNonContracting := [0, 1]
  rhsNonContracting := [0]
  lhsBatch := []
  rhsBatch := []
  wf := dot_S4x256x512_S640x512_S4x256x640_2_1_01_0_n_n_wf
def dot_S4x64x512_S640x512_S4x64x640_2_1_01_0_n_n : DotDims S4x64x512 S640x512 S4x64x640 where
  lhsContracting := [2]
  rhsContracting := [1]
  lhsNonContracting := [0, 1]
  rhsNonContracting := [0]
  lhsBatch := []
  rhsBatch := []
  wf := dot_S4x64x512_S640x512_S4x64x640_2_1_01_0_n_n_wf
def dot_S4x256x64x640_S1024x640_S4x256x64x1024_3_1_012_0_n_n : DotDims S4x256x64x640 S1024x640 S4x256x64x1024 where
  lhsContracting := [3]
  rhsContracting := [1]
  lhsNonContracting := [0, 1, 2]
  rhsNonContracting := [0]
  lhsBatch := []
  rhsBatch := []
  wf := dot_S4x256x64x640_S1024x640_S4x256x64x1024_3_1_012_0_n_n_wf

class Facts : Prop extends Facts₀ where

variable [Facts]
-- ==== Proof.Spec.lean ====
/-
  What the three pallas_calls compute, as functions of whole arrays over the extended reals, index by index.

  A projection sends the rows x[b, s, ·] of a batch of matrices against the columns w[·, j] of a weight matrix laid
  out [D, J] and adds the bias b[j].  The joint stage adds an encoder row e[b, t, ·] and a predictor row p[b, u, ·],
  takes the hyperbolic tangent entry by entry, multiplies the result against the columns w[·, v] of the vocabulary
  weights laid out [J, V] and adds the bias b[v].  The weights reach the kernels transposed: `transposed w` reads
  w[j, d] at [d, j].
-/
import Idealize.ShloMosaic.PureOps.Ideal
import Idealize.ShloMosaic.Lib.ValueIdx

noncomputable section

namespace Cert.Joint

open Idealize.ShloMosaic Idealize.ShloMosaic.ValueIdx

/-- e[b, t, j] = Σ_d x[b, t, d] · w[d, j] + bias[j], for the encoder's 256 rows per batch entry. -/
def encProj (x : (⟨3, ![4, 256, 512]⟩ : Shape).Idx → EReal) (w : (⟨2, ![512, 640]⟩ : Shape).Idx → EReal)
    (bias : (⟨1, ![640]⟩ : Shape).Idx → EReal) : (⟨3, ![4, 256, 640]⟩ : Shape).Idx → EReal :=
  fun i => (∑ d : Fin 512, x (ix3 (i 0) (i 1) d) * w (ix2 d (i 2))) + bias (ix1 (i 2))

/-- p[b, u, j] = Σ_d x[b, u, d] · w[d, j] + bias[j], for the predictor's 64 rows per batch entry. -/
def predProj (x : (⟨3, ![4, 64, 512]⟩ : Shape).Idx → EReal) (w : (⟨2, ![512, 640]⟩ : Shape).Idx → EReal)
    (bias : (⟨1, ![640]⟩ : Shape).Idx → EReal) : (⟨3, ![4, 64, 640]⟩ : Shape).Idx → EReal :=
  fun i => (∑ d : Fin 512, x (ix3 (i 0) (i 1) d) * w (ix2 d (i 2))) + bias (ix1 (i 2))

/-- logits[b, t, u, v] = Σ_j tanh (e[b, t, j] + p[b, u, j]) · w[j, v] + bias[v]. -/
def joint (e : (⟨3, ![4, 256, 640]⟩ : Shape).Idx → EReal) (p : (⟨3, ![4, 64, 640]⟩ : Shape).Idx → EReal)
    (w : (⟨2, ![640, 1024]⟩ : Shape).Idx → EReal) (bias : (⟨1, ![1024]⟩ : Shape).Idx → EReal) :
    (⟨4, ![4, 256, 64, 1024]⟩ : Shape).Idx → EReal :=
  fun i => (∑ j : Fin 640, Ideal.tanh (e (ix3 (i 0) (i 1) j) + p (ix3 (i 0) (i 2) j)) * w (ix2 j (i 3))) + bias (ix1 (i 3))

/-- A [J, D] weight matrix read transposed, at [d, j]. -/
def transposed {J D : Nat} (w : (⟨2, ![J, D]⟩ : Shape).Idx → EReal) : (⟨2, ![D, J]⟩ : Shape).Idx → EReal :=
  fun i => w (ix2 (i 1) (i 0))

end Cert.Joint

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.EncRegion.lean ====
/-
  The first pallas_call: the encoder projection, one batch entry per grid point.

  Point t loads rows [t, ·, ·] of the input (a [1, 256, 512] block), the whole [512, 640] weight and the whole [640]
  bias, and stores the [256, 640] product of the rows with the weight plus the bias, broadcast over the rows, as block
  [t, ·, ·] of the result. At the ideal values the change of float format before the product is the identity and the
  product into a zero accumulator is the plain sum over the shared axis, so the stored entry (r, j) is
  Σ_d x[t, r, d] · w[d, j] + bias[j]. The four blocks tile the [4, 256, 640] result, so after the region the result
  array is that function of the arrays the region was entered with, entry by entry.
-/
import proofs.«172515_j83863531421968_1_alg».proof.Proof.Gen.KernelIdeal.Frame
import proofs.«172515_j83863531421968_1_alg».proof.Proof.Spec
import proofs.«172515_j83863531421968_1_alg».proof.Proof.LibDotRowsCols
import Idealize.ShloMosaic.Lib.Pipeline.Value
import Idealize.ShloMosaic.Lib.ValueIdx
import Idealize.ShloMosaic.PureOps.Ideal.Laws

noncomputable section

namespace Cert.KernelIdeal.EncRegion

open Cert.KernelIdeal Cert.KernelIdeal.Gen Idealize.ShloMosaic Idealize.ShloMosaic.TcCoe Idealize.SL.Sem
open Idealize.ShloMosaic.ValueIdx Cert.Joint Cert.Lib.DotRowsCols
open Idealize.ShloMosaic.Pipeline (Dat)

/-- The body's product contracts the row block's columns with the weight's rows. -/
theorem rowsCols : RowsCols dot_S256x512_S512x640_S256x640_1_0_0_1_n_n := ⟨rfl, rfl, rfl, rfl, rfl, rfl⟩

/-- What the body stores, at row `r` and column `j` of its one batch entry: the row of the loaded block against
    column `j` of the loaded weight, plus the bias at `j` (the change of float format is the identity). -/
theorem pay_apply (x0 : Vec Ideal S1x256x512 .f32) (x1 : Vec Ideal S512x640 .bf16) (x2 : Vec Ideal S640 .f32)
    (r : Fin 256) (j : Fin 640) :
    k0_pay1 (F := Ideal) x0 x1 x2 (ix3 0 r j) = (∑ d : Fin 512, x0 (ix3 0 r d) * x1 (ix2 d j)) + x2 (ix1 j) := by
  unfold k0_pay1
  refine (shapeCast_apply _ _ (ix3 0 r j) (ix2 r j) ?_).trans ?_
  · rw [Shape.rowMajor_val_two, Shape.rowMajor_val_three]
    show r.val * 640 + j.val = (0 * 256 + r.val) * 640 + j.val
    omega
  have hm := rowsCols.matmul_zero_apply (φ₁ := .bf16) (φ₂ := .bf16) none
    (truncf .bf16 (shapeCast S256x512 x0 shapeCasts_S1x256x512_S256x512) bitsLt_bf16_f32)
    (shapeCast S512x640 x1 shapeCasts_S512x640_S512x640) (ix2 r j)
  have hl : ∀ q : Fin 512, (truncf (F := Ideal) .bf16 (shapeCast S256x512 x0 shapeCasts_S1x256x512_S256x512) bitsLt_bf16_f32 (ix2 r q) : EReal)
      = (x0 (ix3 0 r q) : EReal) := fun q => by
    show shapeCast S256x512 x0 shapeCasts_S1x256x512_S256x512 (ix2 r q) = x0 (ix3 0 r q)
    refine shapeCast_apply x0 _ (ix2 r q) (ix3 0 r q) ?_
    rw [Shape.rowMajor_val_two, Shape.rowMajor_val_three]
    show (0 * 256 + r.val) * 512 + q.val = r.val * 512 + q.val
    omega
  have hr : ∀ q : Fin 512, shapeCast S512x640 x1 shapeCasts_S512x640_S512x640 (ix2 q j) = x1 (ix2 q j) :=
    fun q => congrFun (shapeCast_self x1 _) _
  have hb : broadcastTo S256x640 (shapeCast S1x640 x2 shapeCasts_S640_S1x640) broadcasts_S1x640_S256x640 (ix2 r j)
      = x2 (ix1 j) := by
    refine (broadcastTo_apply _ _ (ix2 r j) (ix2 0 j) (fun a => ?_)).trans ?_
    · match a with
      | ⟨0, _⟩ => show (0 : Nat) = if (1 : Nat) = 1 then 0 else _; rw [if_pos rfl]
      | ⟨1, _⟩ => show j.val = if (640 : Nat) = 1 then 0 else _; rw [if_neg (by decide)]; rfl
    · refine shapeCast_apply x2 _ (ix2 0 j) (ix1 j) ?_
      rw [Shape.rowMajor_val_one, Shape.rowMajor_val_two]
      show j.val = 0 * 640 + j.val
      omega
  exact congrArg₂ (· + ·) (hm.trans (Finset.sum_congr rfl fun q _ => congrArg₂ (· * ·) (hl q) (hr q))) hb

/-- The same at any entry of the stored block, against whole arrays the loaded blocks are read from: batch entry
    `b` of `X`, all of `Wt` and all of `Bv`. -/
theorem point_eq (X : S4x256x512.Idx → EReal) (Wt : S512x640.Idx → EReal) (Bv : S640.Idx → EReal)
    (x0 : Vec Ideal S1x256x512 .f32) (x1 : Vec Ideal S512x640 .bf16) (x2 : Vec Ideal S640 .f32) (b : Fin 4)
    (h0 : ∀ (r : Fin 256) (d : Fin 512), x0 (ix3 0 r d) = X (ix3 b r d))
    (h1 : ∀ (d : Fin 512) (j : Fin 640), x1 (ix2 d j) = Wt (ix2 d j))
    (h2 : ∀ j : Fin 640, x2 (ix1 j) = Bv (ix1 j))
    (y : S1x256x640.Idx) (i : S4x256x640.Idx)
    (hi0 : (i 0).val = b.val) (hi1 : (i 1).val = (y 1).val) (hi2 : (i 2).val = (y 2).val) :
    k0_pay1 (F := Ideal) x0 x1 x2 y = encProj X Wt Bv i := by
  obtain ⟨y0, r, j, rfl⟩ : ∃ (y0 : Fin 1) (r : Fin 256) (j : Fin 640), y = ix3 y0 r j := ⟨y 0, y 1, y 2, eq_ix3 y⟩
  obtain ⟨b', r', j', rfl⟩ : ∃ (b' : Fin 4) (r' : Fin 256) (j' : Fin 640), i = ix3 b' r' j' := ⟨i 0, i 1, i 2, eq_ix3 i⟩
  obtain rfl : y0 = 0 := Subsingleton.elim _ _
  obtain rfl : b' = b := Fin.ext hi0
  obtain rfl : r' = r := Fin.ext hi1
  obtain rfl : j' = j := Fin.ext hi2
  rw [pay_apply]
  show _ = (∑ d : Fin 512, X (ix3 b' r' d) * Wt (ix2 d j')) + Bv (ix1 j')
  rw [h2]
  exact congrArg (· + Bv (ix1 j')) (Finset.sum_congr rfl fun d _ => by rw [h0, h1])

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the four grid points: point `t` takes batch entry `t` of the rows and
    of the result, and the whole weight and bias. -/
theorem idx_facts : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 :=
  (by decide +kernel : ∀ t : Fin grid0.N, _)

/-- What point `t` writes back is block `t` of the projection of the arrays as the region finds them. -/
theorem flushed_eq (c : Dev nD) (t : Fin cfg0.N) :
    (dat0 V c).flushed 3 t
      = ((cfg0.win 3).blk t).view.read (Elt Ideal) (encProj (V c main_arg0) (V c main_v1) (V c main_arg3)) := by
  show (cfg0.win 3).cut (grid0.coords t) ((dat0 V c).after 3 t) = _
  rw [after0_3]
  unfold out0_3
  rw [View.canon_unit_zero zeros3]
  simp only [View.ld_unit_zero (S := S1x256x512) zeros3, View.ld_unit_zero (S := S512x640) zeros2,
    View.ld_unit_zero (S := S640) zeros1]
  obtain ⟨e0, e1, e2, f0, f1, f2, g0, g1, k0⟩ := idx_facts t
  funext y
  show k0_pay1 (iblk0 V c 0 t) (iblk0 V c 1 t) (iblk0 V c 2 t) y
    = encProj (V c main_arg0) (V c main_v1) (V c main_arg3) (((cfg0.win 3).blk t).view.emb y)
  refine point_eq _ _ _ _ _ _ ⟨t.val, by have h : t.val < grid0.N := t.isLt; rw [N_0] at h; exact h⟩ (fun r d => ?_) (fun d j => ?_) (fun j => ?_) y _ ?_ ?_ ?_
  · show V c main_arg0 (((cfg0.win 0).blk t).view.emb (ix3 0 r d)) = _
    refine congrArg _ (funext fun a => Fin.ext ?_)
    match a with
    | ⟨0, _⟩ => show win0_0.index t (0 : Fin 3) * 1 + 1 * 0 = t.val; omega
    | ⟨1, _⟩ => show win0_0.index t (1 : Fin 3) * 256 + 1 * r.val = r.val; omega
    | ⟨2, _⟩ => show win0_0.index t (2 : Fin 3) * 512 + 1 * d.val = d.val; omega
  · show V c main_v1 (((cfg0.win 1).blk t).view.emb (ix2 d j)) = _
    refine congrArg _ (funext fun a => Fin.ext ?_)
    match a with
    | ⟨0, _⟩ => show win0_1.index t (0 : Fin 2) * 512 + 1 * d.val = d.val; omega
    | ⟨1, _⟩ => show win0_1.index t (1 : Fin 2) * 640 + 1 * j.val = j.val; omega
  · show V c main_arg3 (((cfg0.win 2).blk t).view.emb (ix1 j)) = _
    refine congrArg _ (funext fun a => Fin.ext ?_)
    match a with
    | ⟨0, _⟩ => show win0_2.index t (0 : Fin 1) * 640 + 1 * j.val = j.val; omega
  · show win0_3.index t (0 : Fin 3) * 1 + 1 * (y 0).val = t.val
    have : (y 0).val < 1 := (y 0).isLt
    omega
  · show win0_3.index t (1 : Fin 3) * 256 + 1 * (y 1).val = (y 1).val; omega
  · show win0_3.index t (2 : Fin 3) * 640 + 1 * (y 2).val = (y 2).val; omega

/-- An entry of the result array is in point `t`'s block iff each coordinate is in the block's range on its axis. -/
theorem mem_blk (t : Fin cfg0.N) (i : S4x256x640.Idx) :
    i ∈ ((cfg0.win 3).blk t).view.set ↔ ∀ a : Fin 3, win0_3.index t a * S1x256x640.size a ≤ (i a).val
      ∧ (i a).val < win0_3.index t a * S1x256x640.size a + S1x256x640.size a := by
  show i ∈ ((View.whole main_v6).slice (win0_3.rect t)).set ↔ _
  rw [View.set_slice_whole, Rect.mem_set_unit]
  exact Iff.rfl

/-- Every entry of the result array is written back by the point of its batch entry. -/
theorem cover (i : S4x256x640.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 640 := (i 2).isLt
  have hN : (i 0).val < grid0.N := by rw [N_0]; exact hi0
  obtain ⟨e0, e1, e2, -⟩ := idx_facts ⟨(i 0).val, hN⟩
  refine ⟨⟨(i 0).val, hN⟩, flush0_3 _, ?_⟩
  rw [mem_blk]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    have : ((⟨(i 0).val, hN⟩ : Fin cfg0.N) : Nat) = (i 0).val := rfl
    omega
  | ⟨1, _⟩ =>
    show win0_3.index ⟨(i 0).val, hN⟩ (1 : Fin 3) * 256 ≤ (i 1).val ∧ (i 1).val < win0_3.index ⟨(i 0).val, hN⟩ (1 : Fin 3) * 256 + 256
    omega
  | ⟨2, _⟩ =>
    show win0_3.index ⟨(i 0).val, hN⟩ (2 : Fin 3) * 640 ≤ (i 2).val ∧ (i 2).val < win0_3.index ⟨(i 0).val, hN⟩ (2 : Fin 3) * 640 + 640
    omega

/-- After the region, its result array is the encoder projection of the arrays the region was entered with. -/
theorem arr (c : Dev nD) :
    (dat0 V c).arrAt 3 cfg0.N = encProj (V c main_arg0) (V c main_v1) (V c main_arg3) :=
  (dat0 V c).arrAt_eq_of_cover 3 _ (fun t _ => flushed_eq V c t) cover

end Cert.KernelIdeal.EncRegion

end
-- ==== Proof.PredRegion.lean ====
import proofs.«172515_j83863531421968_1_alg».proof.Proof.Gen.KernelIdeal.Frame
import proofs.«172515_j83863531421968_1_alg».proof.Proof.Spec
import proofs.«172515_j83863531421968_1_alg».proof.Proof.LibDotRowsCols
import Idealize.ShloMosaic.Lib.Pipeline.Value
import Idealize.ShloMosaic.Lib.ValueIdx
import Idealize.ShloMosaic.PureOps.Ideal.Laws

noncomputable section

namespace Cert.KernelIdeal.PredRegion

open Cert.KernelIdeal Cert.KernelIdeal.Gen Idealize.ShloMosaic Idealize.ShloMosaic.TcCoe Idealize.SL.Sem
open Idealize.ShloMosaic.ValueIdx Cert.Joint Cert.Lib.DotRowsCols
open Idealize.ShloMosaic.Pipeline (Dat)

/-- The body's product contracts the row block's columns with the weight's rows. -/
theorem rowsCols : RowsCols dot_S64x512_S512x640_S64x640_1_0_0_1_n_n := ⟨rfl, rfl, rfl, rfl, rfl, rfl⟩

/-- What the body stores, at row `r` and column `j` of its one batch entry: the row of the loaded block against
    column `j` of the loaded weight, plus the bias at `j` (the change of float format is the identity). -/
theorem pay_apply (x0 : Vec Ideal S1x64x512 .f32) (x1 : Vec Ideal S512x640 .bf16) (x2 : Vec Ideal S640 .f32)
    (r : Fin 64) (j : Fin 640) :
    k1_pay1 (F := Ideal) x0 x1 x2 (ix3 0 r j) = (∑ d : Fin 512, x0 (ix3 0 r d) * x1 (ix2 d j)) + x2 (ix1 j) := by
  unfold k1_pay1
  refine (shapeCast_apply _ _ (ix3 0 r j) (ix2 r j) ?_).trans ?_
  · rw [Shape.rowMajor_val_two, Shape.rowMajor_val_three]
    show r.val * 640 + j.val = (0 * 64 + r.val) * 640 + j.val
    omega
  have hm := rowsCols.matmul_zero_apply (φ₁ := .bf16) (φ₂ := .bf16) none
    (truncf .bf16 (shapeCast S64x512 x0 shapeCasts_S1x64x512_S64x512) bitsLt_bf16_f32)
    (shapeCast S512x640 x1 shapeCasts_S512x640_S512x640) (ix2 r j)
  have hl : ∀ q : Fin 512, (truncf (F := Ideal) .bf16 (shapeCast S64x512 x0 shapeCasts_S1x64x512_S64x512) bitsLt_bf16_f32 (ix2 r q) : EReal)
      = (x0 (ix3 0 r q) : EReal) := fun q => by
    show shapeCast S64x512 x0 shapeCasts_S1x64x512_S64x512 (ix2 r q) = x0 (ix3 0 r q)
    refine shapeCast_apply x0 _ (ix2 r q) (ix3 0 r q) ?_
    rw [Shape.rowMajor_val_two, Shape.rowMajor_val_three]
    show (0 * 64 + r.val) * 512 + q.val = r.val * 512 + q.val
    omega
  have hr : ∀ q : Fin 512, shapeCast S512x640 x1 shapeCasts_S512x640_S512x640 (ix2 q j) = x1 (ix2 q j) :=
    fun q => congrFun (shapeCast_self x1 _) _
  have hb : broadcastTo S64x640 (shapeCast S1x640 x2 shapeCasts_S640_S1x640) broadcasts_S1x640_S64x640 (ix2 r j)
      = x2 (ix1 j) := by
    refine (broadcastTo_apply _ _ (ix2 r j) (ix2 0 j) (fun a => ?_)).trans ?_
    · match a with
      | ⟨0, _⟩ => show (0 : Nat) = if (1 : Nat) = 1 then 0 else _; rw [if_pos rfl]
      | ⟨1, _⟩ => show j.val = if (640 : Nat) = 1 then 0 else _; rw [if_neg (by decide)]; rfl
    · refine shapeCast_apply x2 _ (ix2 0 j) (ix1 j) ?_
      rw [Shape.rowMajor_val_one, Shape.rowMajor_val_two]
      show j.val = 0 * 640 + j.val
      omega
  exact congrArg₂ (· + ·) (hm.trans (Finset.sum_congr rfl fun q _ => congrArg₂ (· * ·) (hl q) (hr q))) hb

/-- The same at any entry of the stored block, against whole arrays the loaded blocks are read from: batch entry
    `b` of `X`, all of `Wt` and all of `Bv`. -/
theorem point_eq (X : S4x64x512.Idx → EReal) (Wt : S512x640.Idx → EReal) (Bv : S640.Idx → EReal)
    (x0 : Vec Ideal S1x64x512 .f32) (x1 : Vec Ideal S512x640 .bf16) (x2 : Vec Ideal S640 .f32) (b : Fin 4)
    (h0 : ∀ (r : Fin 64) (d : Fin 512), x0 (ix3 0 r d) = X (ix3 b r d))
    (h1 : ∀ (d : Fin 512) (j : Fin 640), x1 (ix2 d j) = Wt (ix2 d j))
    (h2 : ∀ j : Fin 640, x2 (ix1 j) = Bv (ix1 j))
    (y : S1x64x640.Idx) (i : S4x64x640.Idx)
    (hi0 : (i 0).val = b.val) (hi1 : (i 1).val = (y 1).val) (hi2 : (i 2).val = (y 2).val) :
    k1_pay1 (F := Ideal) x0 x1 x2 y = predProj X Wt Bv i := by
  obtain ⟨y0, r, j, rfl⟩ : ∃ (y0 : Fin 1) (r : Fin 64) (j : Fin 640), y = ix3 y0 r j := ⟨y 0, y 1, y 2, eq_ix3 y⟩
  obtain ⟨b', r', j', rfl⟩ : ∃ (b' : Fin 4) (r' : Fin 64) (j' : Fin 640), i = ix3 b' r' j' := ⟨i 0, i 1, i 2, eq_ix3 i⟩
  obtain rfl : y0 = 0 := Subsingleton.elim _ _
  obtain rfl : b' = b := Fin.ext hi0
  obtain rfl : r' = r := Fin.ext hi1
  obtain rfl : j' = j := Fin.ext hi2
  rw [pay_apply]
  show _ = (∑ d : Fin 512, X (ix3 b' r' d) * Wt (ix2 d j')) + Bv (ix1 j')
  rw [h2]
  exact congrArg (· + Bv (ix1 j')) (Finset.sum_congr rfl fun d _ => by rw [h0, h1])

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the four grid points: point `t` takes batch entry `t` of the rows and
    of the result, and the whole weight and bias. -/
theorem idx_facts : ∀ t : Fin cfg1.N,
    win1_3.index t (0 : Fin 3) = t.val ∧ win1_3.index t (1 : Fin 3) = 0 ∧ win1_3.index t (2 : Fin 3) = 0
    ∧ win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0 :=
  (by decide +kernel : ∀ t : Fin grid1.N, _)

/-- What point `t` writes back is block `t` of the projection of the arrays as the region finds them. -/
theorem flushed_eq (c : Dev nD) (t : Fin cfg1.N) :
    (dat1 V c).flushed 3 t
      = ((cfg1.win 3).blk t).view.read (Elt Ideal) (predProj (V c main_arg1) (V c main_v3) (V c main_arg5)) := by
  show (cfg1.win 3).cut (grid1.coords t) ((dat1 V c).after 3 t) = _
  rw [after1_3]
  unfold out1_3
  rw [View.canon_unit_zero zeros3]
  simp only [View.ld_unit_zero (S := S1x64x512) zeros3, View.ld_unit_zero (S := S512x640) zeros2,
    View.ld_unit_zero (S := S640) zeros1]
  obtain ⟨e0, e1, e2, f0, f1, f2, g0, g1, k0⟩ := idx_facts t
  funext y
  show k1_pay1 (iblk1 V c 0 t) (iblk1 V c 1 t) (iblk1 V c 2 t) y
    = predProj (V c main_arg1) (V c main_v3) (V c main_arg5) (((cfg1.win 3).blk t).view.emb y)
  refine point_eq _ _ _ _ _ _ ⟨t.val, by have h : t.val < grid1.N := t.isLt; rw [N_1] at h; exact h⟩ (fun r d => ?_) (fun d j => ?_) (fun j => ?_) y _ ?_ ?_ ?_
  · show V c main_arg1 (((cfg1.win 0).blk t).view.emb (ix3 0 r d)) = _
    refine congrArg _ (funext fun a => Fin.ext ?_)
    match a with
    | ⟨0, _⟩ => show win1_0.index t (0 : Fin 3) * 1 + 1 * 0 = t.val; omega
    | ⟨1, _⟩ => show win1_0.index t (1 : Fin 3) * 64 + 1 * r.val = r.val; omega
    | ⟨2, _⟩ => show win1_0.index t (2 : Fin 3) * 512 + 1 * d.val = d.val; omega
  · show V c main_v3 (((cfg1.win 1).blk t).view.emb (ix2 d j)) = _
    refine congrArg _ (funext fun a => Fin.ext ?_)
    match a with
    | ⟨0, _⟩ => show win1_1.index t (0 : Fin 2) * 512 + 1 * d.val = d.val; omega
    | ⟨1, _⟩ => show win1_1.index t (1 : Fin 2) * 640 + 1 * j.val = j.val; omega
  · show V c main_arg5 (((cfg1.win 2).blk t).view.emb (ix1 j)) = _
    refine congrArg _ (funext fun a => Fin.ext ?_)
    match a with
    | ⟨0, _⟩ => show win1_2.index t (0 : Fin 1) * 640 + 1 * j.val = j.val; omega
  · show win1_3.index t (0 : Fin 3) * 1 + 1 * (y 0).val = t.val
    have : (y 0).val < 1 := (y 0).isLt
    omega
  · show win1_3.index t (1 : Fin 3) * 64 + 1 * (y 1).val = (y 1).val; omega
  · show win1_3.index t (2 : Fin 3) * 640 + 1 * (y 2).val = (y 2).val; omega

/-- An entry of the result array is in point `t`'s block iff each coordinate is in the block's range on its axis. -/
theorem mem_blk (t : Fin cfg1.N) (i : S4x64x640.Idx) :
    i ∈ ((cfg1.win 3).blk t).view.set ↔ ∀ a : Fin 3, win1_3.index t a * S1x64x640.size a ≤ (i a).val
      ∧ (i a).val < win1_3.index t a * S1x64x640.size a + S1x64x640.size a := by
  show i ∈ ((View.whole main_v7).slice (win1_3.rect t)).set ↔ _
  rw [View.set_slice_whole, Rect.mem_set_unit]
  exact Iff.rfl

/-- Every entry of the result array is written back by the point of its batch entry. -/
theorem cover (i : S4x64x640.Idx) :
    ∃ t : Fin cfg1.N, (cfg1.win 3).flush t = true ∧ i ∈ ((cfg1.win 3).blk t).view.set := by
  have hi0 : (i 0).val < 4 := (i 0).isLt
  have hi1 : (i 1).val < 64 := (i 1).isLt
  have hi2 : (i 2).val < 640 := (i 2).isLt
  have hN : (i 0).val < grid1.N := by rw [N_1]; exact hi0
  obtain ⟨e0, e1, e2, -⟩ := idx_facts ⟨(i 0).val, hN⟩
  refine ⟨⟨(i 0).val, hN⟩, flush1_3 _, ?_⟩
  rw [mem_blk]
  intro a
  match a with
  | ⟨0, _⟩ =>
    show win1_3.index ⟨(i 0).val, hN⟩ (0 : Fin 3) * 1 ≤ (i 0).val ∧ (i 0).val < win1_3.index ⟨(i 0).val, hN⟩ (0 : Fin 3) * 1 + 1
    have : ((⟨(i 0).val, hN⟩ : Fin cfg1.N) : Nat) = (i 0).val := rfl
    omega
  | ⟨1, _⟩ =>
    show win1_3.index ⟨(i 0).val, hN⟩ (1 : Fin 3) * 64 ≤ (i 1).val ∧ (i 1).val < win1_3.index ⟨(i 0).val, hN⟩ (1 : Fin 3) * 64 + 64
    omega
  | ⟨2, _⟩ =>
    show win1_3.index ⟨(i 0).val, hN⟩ (2 : Fin 3) * 640 ≤ (i 2).val ∧ (i 2).val < win1_3.index ⟨(i 0).val, hN⟩ (2 : Fin 3) * 640 + 640
    omega

/-- After the region, its result array is the predictor projection of the arrays the region was entered with. -/
theorem arr (c : Dev nD) :
    (dat1 V c).arrAt 3 cfg1.N = predProj (V c main_arg1) (V c main_v3) (V c main_arg5) :=
  (dat1 V c).arrAt_eq_of_cover 3 _ (fun t _ => flushed_eq V c t) cover

end Cert.KernelIdeal.PredRegion

end
-- ==== Proof.JointRegion.lean ====
/-
  The third pallas_call: the joint stage, one batch entry and one tile of 32 encoder rows per grid point.

  Point (b, ti) loads rows [b, 32 ti .. 32 ti + 31, ·] of e (a [1, 32, 640] block), all of p[b, ·, ·] (a [1, 64, 640]
  block), the whole [640, 1024] weight and the whole [1024] bias. It adds row tt of the first block to row u of the
  second for every pair (tt, u), takes tanh entry by entry, lays the [32, 64, 640] result out as a [2048, 640] array (row
  64 tt + u), multiplies it with the weight into a zero accumulator, adds the bias broadcast over the rows, and stores
  the [2048, 1024] result laid out again as [1, 32, 64, 1024]: block [b, 32 ti .., ·, ·] of the result. At the ideal
  values the format change is the identity and the product is the plain sum, so the stored entry (tt, u, v) is
  Σ_j tanh (e[b, 32 ti + tt, j] + p[b, u, j]) · w[j, v] + bias[v]. The 32 blocks tile the [4, 256, 64, 1024] result.
-/
import proofs.«172515_j83863531421968_1_alg».proof.Proof.Gen.KernelIdeal.Frame
import proofs.«172515_j83863531421968_1_alg».proof.Proof.Spec
import proofs.«172515_j83863531421968_1_alg».proof.Proof.LibDotRowsCols
import Idealize.ShloMosaic.Lib.Pipeline.Value
import Idealize.ShloMosaic.Lib.ValueIdx
import Idealize.ShloMosaic.PureOps.Ideal.Laws

noncomputable section

namespace Cert.KernelIdeal.JointRegion

open Cert.KernelIdeal Cert.KernelIdeal.Gen Idealize.ShloMosaic Idealize.ShloMosaic.TcCoe Idealize.SL.Sem
open Idealize.ShloMosaic.ValueIdx Cert.Joint Cert.Lib.DotRowsCols
open Idealize.ShloMosaic.Pipeline (Dat)

/-- The body's product contracts the flattened rows' columns with the weight's rows. -/
theorem rowsCols : RowsCols dot_S2048x640_S640x1024_S2048x1024_1_0_0_1_n_n := ⟨rfl, rfl, rfl, rfl, rfl, rfl⟩

/-- The product's left operand: tanh of the sum of the two broadcast blocks, rows (tt, u) flattened to 64 tt + u. -/
def zmat (x0 : Vec Ideal S1x32x640 .f32) (x1 : Vec Ideal S1x64x640 .f32) : FVec Ideal S2048x640 .bf16 :=
  shapeCast S2048x640 (truncf .bf16 (tanh (addf
    (broadcastTo S32x64x640 (shapeCast S32x1x640 (shapeCast S32x640 x0 shapeCasts_S1x32x640_S32x640) shapeCasts_S32x640_S32x1x640) broadcasts_S32x1x640_S32x64x640)
    (broadcastTo S32x64x640 (shapeCast S1x64x640 (shapeCast S64x640 x1 shapeCasts_S1x64x640_S64x640) shapeCasts_S64x640_S1x64x640) broadcasts_S1x64x640_S32x64x640)))
    bitsLt_bf16_f32) shapeCasts_S32x64x640_S2048x640

/-- Row 64 tt + u of the left operand, at column q: tanh of row tt of the first block plus row u of the second. -/
theorem zmat_apply (x0 : Vec Ideal S1x32x640 .f32) (x1 : Vec Ideal S1x64x640 .f32) (tt : Fin 32) (u : Fin 64) (q : Fin 640)
    (hrow : tt.val * 64 + u.val < 2048) :
    (zmat x0 x1 (ix2 ⟨tt.val * 64 + u.val, hrow⟩ q) : EReal) = Ideal.tanh (x0 (ix3 0 tt q) + x1 (ix3 0 u q)) := by
  unfold zmat
  refine (shapeCast_apply _ _ (ix2 ⟨tt.val * 64 + u.val, hrow⟩ q) (ix3 tt u q) ?_).trans ?_
  · rw [Shape.rowMajor_val_two, Shape.rowMajor_val_three]
    show (tt.val * 64 + u.val) * 640 + q.val = (tt.val * 64 + u.val) * 640 + q.val
    rfl
  refine congrArg Ideal.tanh (congrArg₂ (· + ·) ?_ ?_)
  · refine (broadcastTo_apply _ _ (ix3 tt u q) (ix3 tt 0 q) (fun a => ?_)).trans ?_
    · match a with
      | ⟨0, _⟩ => show tt.val = if (32 : Nat) = 1 then 0 else _; rw [if_neg (by decide)]; rfl
      | ⟨1, _⟩ => show (0 : Nat) = if (1 : Nat) = 1 then 0 else _; rw [if_pos rfl]
      | ⟨2, _⟩ => show q.val = if (640 : Nat) = 1 then 0 else _; rw [if_neg (by decide)]; rfl
    refine (shapeCast_apply _ _ (ix3 tt 0 q) (ix2 tt q) ?_).trans ?_
    · rw [Shape.rowMajor_val_two, Shape.rowMajor_val_three]
      show tt.val * 640 + q.val = (tt.val * 1 + 0) * 640 + q.val
      omega
    refine shapeCast_apply x0 _ (ix2 tt q) (ix3 0 tt q) ?_
    rw [Shape.rowMajor_val_two, Shape.rowMajor_val_three]
    show (0 * 32 + tt.val) * 640 + q.val = tt.val * 640 + q.val
    omega
  · refine (broadcastTo_apply _ _ (ix3 tt u q) (ix3 0 u q) (fun a => ?_)).trans ?_
    · match a with
      | ⟨0, _⟩ => show (0 : Nat) = if (1 : Nat) = 1 then 0 else _; rw [if_pos rfl]
      | ⟨1, _⟩ => show u.val = if (64 : Nat) = 1 then 0 else _; rw [if_neg (by decide)]; rfl
      | ⟨2, _⟩ => show q.val = if (640 : Nat) = 1 then 0 else _; rw [if_neg (by decide)]; rfl
    refine (shapeCast_apply _ _ (ix3 0 u q) (ix2 u q) ?_).trans ?_
    · rw [Shape.rowMajor_val_two, Shape.rowMajor_val_three]
      show u.val * 640 + q.val = (0 * 64 + u.val) * 640 + q.val
      omega
    refine shapeCast_apply x1 _ (ix2 u q) (ix3 0 u q) ?_
    rw [Shape.rowMajor_val_two, Shape.rowMajor_val_three]
    show (0 * 64 + u.val) * 640 + q.val = u.val * 640 + q.val
    omega

/-- The stored value is the product of that operand with the weight plus the broadcast bias, laid out twice. -/
theorem pay_form (x0 : Vec Ideal S1x32x640 .f32) (x1 : Vec Ideal S1x64x640 .f32) (x2 : Vec Ideal S640x1024 .bf16) (x3 : Vec Ideal S1024 .f32) :
    k2_pay1 (F := Ideal) x0 x1 x2 x3
      = shapeCast S1x32x64x1024 (shapeCast S32x64x1024 (addf
          (matmul (φ₁ := .bf16) (φ₂ := .bf16) dot_S2048x640_S640x1024_S2048x1024_1_0_0_1_n_n none (zmat x0 x1)
            (shapeCast S640x1024 x2 shapeCasts_S640x1024_S640x1024) (constant S2048x1024 .f32 0x00000000#32))
          (broadcastTo S2048x1024 (shapeCast S1x1024 x3 shapeCasts_S1024_S1x1024) broadcasts_S1x1024_S2048x1024))
          shapeCasts_S2048x1024_S32x64x1024) shapeCasts_S32x64x1024_S1x32x64x1024 := rfl

/-- What the body stores at (tt, u, v) of its one batch entry. -/
theorem pay_apply (x0 : Vec Ideal S1x32x640 .f32) (x1 : Vec Ideal S1x64x640 .f32) (x2 : Vec Ideal S640x1024 .bf16) (x3 : Vec Ideal S1024 .f32)
    (tt : Fin 32) (u : Fin 64) (v : Fin 1024) :
    k2_pay1 (F := Ideal) x0 x1 x2 x3 (ix4 0 tt u v)
      = (∑ q : Fin 640, Ideal.tanh (x0 (ix3 0 tt q) + x1 (ix3 0 u q)) * x2 (ix2 q v)) + x3 (ix1 v) := by
  have hrow : tt.val * 64 + u.val < 2048 := by have := tt.isLt; have := u.isLt; omega
  rw [pay_form]
  refine (shapeCast_apply _ _ (ix4 0 tt u v) (ix3 tt u v) ?_).trans ?_
  · rw [Shape.rowMajor_val_three, Shape.rowMajor_val_four]
    show (tt.val * 64 + u.val) * 1024 + v.val = ((0 * 32 + tt.val) * 64 + u.val) * 1024 + v.val
    omega
  refine (shapeCast_apply _ _ (ix3 tt u v) (ix2 ⟨tt.val * 64 + u.val, hrow⟩ v) ?_).trans ?_
  · rw [Shape.rowMajor_val_two, Shape.rowMajor_val_three]
    show (tt.val * 64 + u.val) * 1024 + v.val = (tt.val * 64 + u.val) * 1024 + v.val
    rfl
  have hm := rowsCols.matmul_zero_apply (φ₁ := .bf16) (φ₂ := .bf16) none (zmat x0 x1)
    (shapeCast S640x1024 x2 shapeCasts_S640x1024_S640x1024) (ix2 ⟨tt.val * 64 + u.val, hrow⟩ v)
  have hr : ∀ q : Fin 640, shapeCast S640x1024 x2 shapeCasts_S640x1024_S640x1024 (ix2 q v) = x2 (ix2 q v) :=
    fun q => congrFun (shapeCast_self x2 _) _
  have hb : broadcastTo S2048x1024 (shapeCast S1x1024 x3 shapeCasts_S1024_S1x1024) broadcasts_S1x1024_S2048x1024
      (ix2 ⟨tt.val * 64 + u.val, hrow⟩ v) = x3 (ix1 v) := by
    refine (broadcastTo_apply _ _ (ix2 ⟨tt.val * 64 + u.val, hrow⟩ v) (ix2 0 v) (fun a => ?_)).trans ?_
    · match a with
      | ⟨0, _⟩ => show (0 : Nat) = if (1 : Nat) = 1 then 0 else _; rw [if_pos rfl]
      | ⟨1, _⟩ => show v.val = if (1024 : Nat) = 1 then 0 else _; rw [if_neg (by decide)]; rfl
    · refine shapeCast_apply x3 _ (ix2 0 v) (ix1 v) ?_
      rw [Shape.rowMajor_val_one, Shape.rowMajor_val_two]
      show v.val = 0 * 1024 + v.val
      omega
  exact congrArg₂ (· + ·) (hm.trans (Finset.sum_congr rfl fun q _ => congrArg₂ (· * ·) (zmat_apply x0 x1 tt u q hrow) (hr q))) hb

/-- The same at any entry of the stored block, against whole arrays the loaded blocks are read from: rows
    32 ti .. 32 ti + 31 of batch entry `b` of `E`, batch entry `b` of `P`, all of `Wt` and all of `Bv`. -/
theorem point_eq (E : S4x256x640.Idx → EReal) (P : S4x64x640.Idx → EReal) (Wt : S640x1024.Idx → EReal) (Bv : S1024.Idx → EReal)
    (x0 : Vec Ideal S1x32x640 .f32) (x1 : Vec Ideal S1x64x640 .f32) (x2 : Vec Ideal S640x1024 .bf16) (x3 : Vec Ideal S1024 .f32)
    (b : Fin 4) (ti : Fin 8)
    (h0 : ∀ (tt : Fin 32) (q : Fin 640),
      x0 (ix3 0 tt q) = E (ix3 b ⟨ti.val * 32 + tt.val, by have := ti.isLt; have := tt.isLt; omega⟩ q))
    (h1 : ∀ (u : Fin 64) (q : Fin 640), x1 (ix3 0 u q) = P (ix3 b u q))
    (h2 : ∀ (q : Fin 640) (v : Fin 1024), x2 (ix2 q v) = Wt (ix2 q v))
    (h3 : ∀ v : Fin 1024, x3 (ix1 v) = Bv (ix1 v))
    (y : S1x32x64x1024.Idx) (i : S4x256x64x1024.Idx)
    (hi0 : (i 0).val = b.val) (hi1 : (i 1).val = ti.val * 32 + (y 1).val) (hi2 : (i 2).val = (y 2).val)
    (hi3 : (i 3).val = (y 3).val) :
    k2_pay1 (F := Ideal) x0 x1 x2 x3 y = joint E P Wt Bv i := by
  obtain ⟨y0, tt, u, v, rfl⟩ : ∃ (y0 : Fin 1) (tt : Fin 32) (u : Fin 64) (v : Fin 1024), y = ix4 y0 tt u v :=
    ⟨y 0, y 1, y 2, y 3, eq_ix4 y⟩
  have hlt : ti.val * 32 + tt.val < 256 := by have := ti.isLt; have := tt.isLt; omega
  obtain ⟨b', t', u', v', rfl⟩ : ∃ (b' : Fin 4) (t' : Fin 256) (u' : Fin 64) (v' : Fin 1024), i = ix4 b' t' u' v' :=
    ⟨i 0, i 1, i 2, i 3, eq_ix4 i⟩
  obtain rfl : y0 = 0 := Subsingleton.elim _ _
  obtain rfl : b' = b := Fin.ext hi0
  obtain rfl : t' = ⟨ti.val * 32 + tt.val, hlt⟩ := Fin.ext hi1
  obtain rfl : u' = u := Fin.ext hi2
  obtain rfl : v' = v := Fin.ext hi3
  rw [pay_apply]
  show _ = (∑ q : Fin 640, Ideal.tanh (E (ix3 b' ⟨ti.val * 32 + tt.val, hlt⟩ q) + P (ix3 b' u' q)) * Wt (ix2 q v')) + Bv (ix1 v')
  rw [h3]
  exact congrArg (· + Bv (ix1 v')) (Finset.sum_congr rfl fun q _ => by rw [h0, h1, h2])

variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 32 grid points: point `t` is batch entry t / 8 and row tile t mod 8;
    it takes that tile of e and of the result, batch entry t / 8 of p, and the whole weight and bias. -/
theorem idx_facts : ∀ t : Fin cfg2.N,
    win2_4.index t (0 : Fin 4) = t.val / 8 ∧ win2_4.index t (1 : Fin 4) = t.val % 8
    ∧ win2_4.index t (2 : Fin 4) = 0 ∧ win2_4.index t (3 : Fin 4) = 0
    ∧ win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0 :=
  (by decide +kernel : ∀ t : Fin grid2.N, _)

/-- What point `t` writes back is block `t` of the joint stage of the arrays as the region finds them. -/
theorem flushed_eq (c : Dev nD) (t : Fin cfg2.N) :
    (dat2 V c).flushed 4 t
      = ((cfg2.win 4).blk t).view.read (Elt Ideal) (joint (V c main_v6) (V c main_v7) (V c main_v5) (V c main_arg7)) := by
  show (cfg2.win 4).cut (grid2.coords t) ((dat2 V c).after 4 t) = _
  rw [after2_4]
  unfold out2_4
  rw [View.canon_unit_zero zeros4]
  simp only [View.ld_unit_zero (S := S1x32x640) zeros3, View.ld_unit_zero (S := S1x64x640) zeros3,
    View.ld_unit_zero (S := S640x1024) zeros2, View.ld_unit_zero (S := S1024) zeros1]
  obtain ⟨e0, e1, e2, e3, f0, f1, f2, g0, g1, g2, w0, w1, k0⟩ := idx_facts t
  have hN : t.val < 32 := by have h : t.val < grid2.N := t.isLt; rw [N_2] at h; exact h
  funext y
  show k2_pay1 (iblk2 V c 0 t) (iblk2 V c 1 t) (iblk2 V c 2 t) (iblk2 V c 3 t) y
    = joint (V c main_v6) (V c main_v7) (V c main_v5) (V c main_arg7) (((cfg2.win 4).blk t).view.emb y)
  refine point_eq _ _ _ _ _ _ _ _ ⟨t.val / 8, by omega⟩ ⟨t.val % 8, by omega⟩
    (fun tt q => ?_) (fun u q => ?_) (fun q v => ?_) (fun v => ?_) y _ ?_ ?_ ?_ ?_
  · show V c main_v6 (((cfg2.win 0).blk t).view.emb (ix3 0 tt q)) = _
    refine congrArg _ (funext fun a => Fin.ext ?_)
    match a with
    | ⟨0, _⟩ => show win2_0.index t (0 : Fin 3) * 1 + 1 * 0 = t.val / 8; omega
    | ⟨1, _⟩ => show win2_0.index t (1 : Fin 3) * 32 + 1 * tt.val = t.val % 8 * 32 + tt.val; omega
    | ⟨2, _⟩ => show win2_0.index t (2 : Fin 3) * 640 + 1 * q.val = q.val; omega
  · show V c main_v7 (((cfg2.win 1).blk t).view.emb (ix3 0 u q)) = _
    refine congrArg _ (funext fun a => Fin.ext ?_)
    match a with
    | ⟨0, _⟩ => show win2_1.index t (0 : Fin 3) * 1 + 1 * 0 = t.val / 8; omega
    | ⟨1, _⟩ => show win2_1.index t (1 : Fin 3) * 64 + 1 * u.val = u.val; omega
    | ⟨2, _⟩ => show win2_1.index t (2 : Fin 3) * 640 + 1 * q.val = q.val; omega
  · show V c main_v5 (((cfg2.win 2).blk t).view.emb (ix2 q v)) = _
    refine congrArg _ (funext fun a => Fin.ext ?_)
    match a with
    | ⟨0, _⟩ => show win2_2.index t (0 : Fin 2) * 640 + 1 * q.val = q.val; omega
    | ⟨1, _⟩ => show win2_2.index t (1 : Fin 2) * 1024 + 1 * v.val = v.val; omega
  · show V c main_arg7 (((cfg2.win 3).blk t).view.emb (ix1 v)) = _
    refine congrArg _ (funext fun a => Fin.ext ?_)
    match a with
    | ⟨0, _⟩ => show win2_3.index t (0 : Fin 1) * 1024 + 1 * v.val = v.val; omega
  · show win2_4.index t (0 : Fin 4) * 1 + 1 * (y 0).val = t.val / 8
    have : (y 0).val < 1 := (y 0).isLt
    omega
  · show win2_4.index t (1 : Fin 4) * 32 + 1 * (y 1).val = t.val % 8 * 32 + (y 1).val; omega
  · show win2_4.index t (2 : Fin 4) * 64 + 1 * (y 2).val = (y 2).val; omega
  · show win2_4.index t (3 : Fin 4) * 1024 + 1 * (y 3).val = (y 3).val; omega

/-- An entry of the result array is in point `t`'s block iff each coordinate is in the block's range on its axis. -/
theorem mem_blk (t : Fin cfg2.N) (i : S4x256x64x1024.Idx) :
    i ∈ ((cfg2.win 4).blk t).view.set ↔ ∀ a : Fin 4, win2_4.index t a * S1x32x64x1024.size a ≤ (i a).val
      ∧ (i a).val < win2_4.index t a * S1x32x64x1024.size a + S1x32x64x1024.size a := by
  show i ∈ ((View.whole main_v8).slice (win2_4.rect t)).set ↔ _
  rw [View.set_slice_whole, Rect.mem_set_unit]
  exact Iff.rfl

/-- Every entry of the result array is written back by the point of its batch entry and row tile. -/
theorem cover (i : S4x256x64x1024.Idx) :
    ∃ t : Fin cfg2.N, (cfg2.win 4).flush t = true ∧ i ∈ ((cfg2.win 4).blk t).view.set := by
  have hi0 : (i 0).val < 4 := (i 0).isLt
  have hi1 : (i 1).val < 256 := (i 1).isLt
  have hi2 : (i 2).val < 64 := (i 2).isLt
  have hi3 : (i 3).val < 1024 := (i 3).isLt
  have hN : (i 0).val * 8 + (i 1).val / 32 < grid2.N := by rw [N_2]; omega
  obtain ⟨e0, e1, e2, e3, -⟩ := idx_facts ⟨(i 0).val * 8 + (i 1).val / 32, hN⟩
  have hv : ((⟨(i 0).val * 8 + (i 1).val / 32, hN⟩ : Fin cfg2.N) : Nat) = (i 0).val * 8 + (i 1).val / 32 := rfl
  refine ⟨⟨(i 0).val * 8 + (i 1).val / 32, hN⟩, flush2_4 _, ?_⟩
  rw [mem_blk]
  intro a
  match a with
  | ⟨0, _⟩ =>
    show win2_4.index ⟨(i 0).val * 8 + (i 1).val / 32, hN⟩ (0 : Fin 4) * 1 ≤ (i 0).val
      ∧ (i 0).val < win2_4.index ⟨(i 0).val * 8 + (i 1).val / 32, hN⟩ (0 : Fin 4) * 1 + 1
    omega
  | ⟨1, _⟩ =>
    show win2_4.index ⟨(i 0).val * 8 + (i 1).val / 32, hN⟩ (1 : Fin 4) * 32 ≤ (i 1).val
      ∧ (i 1).val < win2_4.index ⟨(i 0).val * 8 + (i 1).val / 32, hN⟩ (1 : Fin 4) * 32 + 32
    omega
  | ⟨2, _⟩ =>
    show win2_4.index ⟨(i 0).val * 8 + (i 1).val / 32, hN⟩ (2 : Fin 4) * 64 ≤ (i 2).val
      ∧ (i 2).val < win2_4.index ⟨(i 0).val * 8 + (i 1).val / 32, hN⟩ (2 : Fin 4) * 64 + 64
    omega
  | ⟨3, _⟩ =>
    show win2_4.index ⟨(i 0).val * 8 + (i 1).val / 32, hN⟩ (3 : Fin 4) * 1024 ≤ (i 3).val
      ∧ (i 3).val < win2_4.index ⟨(i 0).val * 8 + (i 1).val / 32, hN⟩ (3 : Fin 4) * 1024 + 1024
    omega

/-- After the region, its result array is the joint stage of the arrays the region was entered with. -/
theorem arr (c : Dev nD) :
    (dat2 V c).arrAt 4 cfg2.N = joint (V c main_v6) (V c main_v7) (V c main_v5) (V c main_arg7) :=
  (dat2 V c).arrAt_eq_of_cover 4 _ (fun t _ => flushed_eq V c t) cover

end Cert.KernelIdeal.JointRegion

end
-- ==== Proof.Boundaries.lean ====
/-
  What each region finds in the arrays it reads, in terms of the launch memory.

  Before the first region the host transposes the three weight matrices and changes their float format (the
  identity at the ideal values): the arrays the kernels read as weights are the arguments read transposed, w[j, d] at
  [d, j]. No host operation and no region writes an argument array, and a region writes only its own result array, so
  the second and third regions find the transposed weights and the arguments as the first did, and the third finds
  the first two regions' result arrays as those regions left them.
-/
import proofs.«172515_j83863531421968_1_alg».proof.Proof.Gen.KernelIdeal.Frame
import proofs.«172515_j83863531421968_1_alg».proof.Proof.Spec
import Idealize.ShloMosaic.Lib.Pipeline.Value
import Idealize.ShloMosaic.Lib.StableHlo.Run

noncomputable section

namespace Cert.KernelIdeal.Boundaries

open Cert.KernelIdeal Cert.KernelIdeal.Gen Idealize.ShloMosaic Idealize.ShloMosaic.TcCoe Idealize.SL.Sem
open Idealize.ShloMosaic.ValueIdx Idealize.ShloMosaic.StableHlo Cert.Joint

/-- The host's transpose of a matrix with the axes swapped reads the matrix at the swapped index. -/
theorem transpose_eq {J D : Nat} (x : (⟨2, ![J, D]⟩ : Shape).Idx → EReal)
    (h : (⟨2, ![J, D]⟩ : Shape).Transposes [1, 0] ⟨2, ![D, J]⟩) :
    transpose ⟨2, ![D, J]⟩ [1, 0] x h = transposed x := by
  funext i
  refine transpose_apply _ x h i (ix2 (i 1) (i 0)) (fun b => ?_)
  match b with
  | ⟨0, _⟩ => rfl
  | ⟨1, _⟩ => rfl

variable (m : (ℓ : Loc nD τ sig) → Buf (Elt Ideal) ℓ) (ρ : Dev nD → PrngReg)

/-! ## After the host stretch -/

theorem W1_v1 (c : Dev nD) :
    (W1 m ρ c (Proc.devRef .tc main_v1) : S512x640.Idx → EReal) = transposed (m ((c : Thread nD τ).loc main_arg2)) := by
  show StableHlo.after hostOps0 (W0 m ρ c) (Proc.devRef .tc main_v1) = _
  after_results
  exact transpose_eq _ _

theorem W1_v3 (c : Dev nD) :
    (W1 m ρ c (Proc.devRef .tc main_v3) : S512x640.Idx → EReal) = transposed (m ((c : Thread nD τ).loc main_arg4)) := by
  show StableHlo.after hostOps0 (W0 m ρ c) (Proc.devRef .tc main_v3) = _
  after_results
  exact transpose_eq _ _

theorem W1_v5 (c : Dev nD) :
    (W1 m ρ c (Proc.devRef .tc main_v5) : S640x1024.Idx → EReal) = transposed (m ((c : Thread nD τ).loc main_arg6)) := by
  show StableHlo.after hostOps0 (W0 m ρ c) (Proc.devRef .tc main_v5) = _
  after_results
  exact transpose_eq _ _

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results

/-! ## What the first region reads -/

theorem V1_arg0 (c : Dev nD) : V1 m ρ c main_arg0 = m ((c : Thread nD τ).loc main_arg0) := W1_arg0 m ρ c
theorem V1_v1 (c : Dev nD) :
    (V1 m ρ c main_v1 : S512x640.Idx → EReal) = transposed (m ((c : Thread nD τ).loc main_arg2)) := W1_v1 m ρ c
theorem V1_arg3 (c : Dev nD) : V1 m ρ c main_arg3 = m ((c : Thread nD τ).loc main_arg3) := W1_arg3 m ρ c

/-! ## What the second region reads: the first wrote none of it -/

theorem V2_arg1 (c : Dev nD) : V2 m ρ c main_arg1 = m ((c : Thread nD τ).loc main_arg1) :=
  (W2_of_ne m ρ c main_arg1 (by decide)).trans (W1_arg1 m ρ c)
theorem V2_v3 (c : Dev nD) :
    (V2 m ρ c main_v3 : S512x640.Idx → EReal) = transposed (m ((c : Thread nD τ).loc main_arg4)) :=
  (W2_of_ne m ρ c main_v3 (by decide)).trans (W1_v3 m ρ c)
theorem V2_arg5 (c : Dev nD) : V2 m ρ c main_arg5 = m ((c : Thread nD τ).loc main_arg5) :=
  (W2_of_ne m ρ c main_arg5 (by decide)).trans (W1_arg5 m ρ c)

/-! ## What the third region reads: the first two regions' results as they left them, the rest untouched -/

theorem V3_v6 (c : Dev nD) : V3 m ρ c main_v6 = (dat0 (V1 m ρ) c).arrAt 3 cfg0.N :=
  (W3_of_ne m ρ c main_v6 (by decide)).trans (W2_arr m ρ c 3)
theorem V3_v7 (c : Dev nD) : V3 m ρ c main_v7 = (dat1 (V2 m ρ) c).arrAt 3 cfg1.N :=
  W3_arr m ρ c 3
theorem V3_v5 (c : Dev nD) :
    (V3 m ρ c main_v5 : S640x1024.Idx → EReal) = transposed (m ((c : Thread nD τ).loc main_arg6)) :=
  (W3_of_ne m ρ c main_v5 (by decide)).trans ((W2_of_ne m ρ c main_v5 (by decide)).trans (W1_v5 m ρ c))
theorem V3_arg7 (c : Dev nD) : V3 m ρ c main_arg7 = m ((c : Thread nD τ).loc main_arg7) :=
  (W3_of_ne m ρ c main_arg7 (by decide)).trans ((W2_of_ne m ρ c main_arg7 (by decide)).trans (W1_arg7 m ρ c))

/-- The result array at the end of @main is what the third region's write-backs leave. -/
theorem W4_v8 (c : Dev nD) : W4 m ρ c (Proc.devRef .tc main_v8) = (dat2 (V3 m ρ) c).arrAt 4 cfg2.N :=
  W4_arr m ρ c 4

end Cert.KernelIdeal.Boundaries

end
-- ==== Proof.Result.lean ====
/-
  The kernel program's result as one function of its arguments.

  The result array at the end of @main is what the third region leaves: the joint stage of the first two regions'
  result arrays, the transposed vocabulary weight and its bias; and those two arrays are the encoder and predictor
  projections of the arguments against the transposed projection weights. Composed:
  logits = joint (encProj enc enc_wᵀ enc_b) (predProj pred pred_wᵀ pred_b) out_wᵀ out_b.
-/
import proofs.«172515_j83863531421968_1_alg».proof.Proof.EncRegion
import proofs.«172515_j83863531421968_1_alg».proof.Proof.PredRegion
import proofs.«172515_j83863531421968_1_alg».proof.Proof.JointRegion
import proofs.«172515_j83863531421968_1_alg».proof.Proof.Boundaries

noncomputable section

namespace Cert.KernelIdeal.Result

open Cert.KernelIdeal Cert.KernelIdeal.Gen Idealize.ShloMosaic Idealize.ShloMosaic.TcCoe Idealize.SL.Sem
open Cert.Joint Cert.KernelIdeal.Boundaries

variable (m : (ℓ : Loc nD τ sig) → Buf (Elt Ideal) ℓ) (ρ : Dev nD → PrngReg)

/-- The whole computation over the launch memory of core `c`. -/
def logits (c : Dev nD) : S4x256x64x1024.Idx → EReal :=
  joint
    (encProj (m ((c : Thread nD τ).loc main_arg0)) (transposed (m ((c : Thread nD τ).loc main_arg2))) (m ((c : Thread nD τ).loc main_arg3)))
    (predProj (m ((c : Thread nD τ).loc main_arg1)) (transposed (m ((c : Thread nD τ).loc main_arg4))) (m ((c : Thread nD τ).loc main_arg5)))
    (transposed (m ((c : Thread nD τ).loc main_arg6))) (m ((c : Thread nD τ).loc main_arg7))

/-- The first region leaves the encoder projection of the arguments. -/
theorem enc_arr (c : Dev nD) :
    V3 m ρ c main_v6
      = encProj (m ((c : Thread nD τ).loc main_arg0)) (transposed (m ((c : Thread nD τ).loc main_arg2))) (m ((c : Thread nD τ).loc main_arg3)) := by
  refine (V3_v6 m ρ c).trans ((EncRegion.arr (V1 m ρ) c).trans ?_)
  rw [V1_arg0, V1_v1, V1_arg3]

/-- The second region leaves the predictor projection of the arguments. -/
theorem pred_arr (c : Dev nD) :
    V3 m ρ c main_v7
      = predProj (m ((c : Thread nD τ).loc main_arg1)) (transposed (m ((c : Thread nD τ).loc main_arg4))) (m ((c : Thread nD τ).loc main_arg5)) := by
  refine (V3_v7 m ρ c).trans ((PredRegion.arr (V2 m ρ) c).trans ?_)
  rw [V2_arg1, V2_v3, V2_arg5]

/-- The result array at the end of @main is `logits` of the launch memory. -/
theorem result_eq (c : Dev nD) : W4 m ρ c (Proc.devRef .tc main_v8) = logits m c := by
  refine (W4_v8 m ρ c).trans ((JointRegion.arr (V3 m ρ) c).trans ?_)
  rw [enc_arr, pred_arr, V3_v5, V3_arg7]
  rfl

end Cert.KernelIdeal.Result

end
-- ==== Proof.RefStages.lean ====
/-
  The reference program's stages, read index by index, are the specification's functions: its encoder and predictor
  stages are the projections against the TRANSPOSED weights (the reference contracts x[b, s, ·] with w[j, ·], which is
  the row against column j of the transpose), and its result is the joint stage over those two.
-/
import proofs.«172515_j83863531421968_1_alg».proof.Proof.Gen.ReferenceIdeal.Read
import proofs.«172515_j83863531421968_1_alg».proof.Proof.Spec

noncomputable section

namespace Cert.ReferenceIdeal.Stages

open Cert.ReferenceIdeal Cert.ReferenceIdeal.Read Idealize.ShloMosaic Idealize.ShloMosaic.ValueIdx Cert.Joint

/-- The reference's encoder stage e = enc · enc_wᵀ + enc_b is the projection against the transposed weight. -/
theorem enc_eq (x0 : (⟨S4x256x512, .f32⟩ : BufTy).Contents (Elt Ideal)) (x2 : (⟨S640x512, .f32⟩ : BufTy).Contents (Elt Ideal))
    (x3 : (⟨S640, .f32⟩ : BufTy).Contents (Elt Ideal)) :
    val_main_v3 (F := Ideal) x0 x2 x3 = encProj x0 (transposed x2) x3 := by
  funext i
  rw [val_main_v3_apply, val_main_v0_apply, val_main_v2_apply, val_main_v1_apply]
  have hl : ∀ k : Fin 512, lidx_main_v0 i k = ix3 (i 0) (i 1) k := fun k => funext fun a => by
    match a with | ⟨0, _⟩ => rfl | ⟨1, _⟩ => rfl | ⟨2, _⟩ => rfl
  have hr : ∀ k : Fin 512, ridx_main_v0 i k = ix2 (i 2) k := fun k => funext fun a => by
    match a with | ⟨0, _⟩ => rfl | ⟨1, _⟩ => rfl
  have hb : idx_main_v1 (idx_main_v2 i) = ix1 (i 2) := funext fun a => by
    match a with | ⟨0, _⟩ => rfl
  simp only [hl, hr, hb]
  rfl

/-- The reference's predictor stage p = pred · pred_wᵀ + pred_b is the projection against the transposed weight. -/
theorem pred_eq (x1 : (⟨S4x64x512, .f32⟩ : BufTy).Contents (Elt Ideal)) (x4 : (⟨S640x512, .f32⟩ : BufTy).Contents (Elt Ideal))
    (x5 : (⟨S640, .f32⟩ : BufTy).Contents (Elt Ideal)) :
    val_main_v7 (F := Ideal) x1 x4 x5 = predProj x1 (transposed x4) x5 := by
  funext i
  rw [val_main_v7_apply, val_main_v4_apply, val_main_v6_apply, val_main_v5_apply]
  have hl : ∀ k : Fin 512, lidx_main_v4 i k = ix3 (i 0) (i 1) k := fun k => funext fun a => by
    match a with | ⟨0, _⟩ => rfl | ⟨1, _⟩ => rfl | ⟨2, _⟩ => rfl
  have hr : ∀ k : Fin 512, ridx_main_v4 i k = ix2 (i 2) k := fun k => funext fun a => by
    match a with | ⟨0, _⟩ => rfl | ⟨1, _⟩ => rfl
  have hb : idx_main_v5 (idx_main_v6 i) = ix1 (i 2) := funext fun a => by
    match a with | ⟨0, _⟩ => rfl
  simp only [hl, hr, hb]
  rfl

/-- The reference's result is the joint stage of its encoder and predictor stages: both broadcasts read the stage at
    (b, t, j) and (b, u, j), the host's tanh is the ideal tanh, and the last contraction is against column v of the
    transposed vocabulary weight. -/
theorem out_eq (x0 : (⟨S4x256x512, .f32⟩ : BufTy).Contents (Elt Ideal)) (x1 : (⟨S4x64x512, .f32⟩ : BufTy).Contents (Elt Ideal))
    (x2 : (⟨S640x512, .f32⟩ : BufTy).Contents (Elt Ideal)) (x3 : (⟨S640, .f32⟩ : BufTy).Contents (Elt Ideal))
    (x4 : (⟨S640x512, .f32⟩ : BufTy).Contents (Elt Ideal)) (x5 : (⟨S640, .f32⟩ : BufTy).Contents (Elt Ideal))
    (x6 : (⟨S1024x640, .f32⟩ : BufTy).Contents (Elt Ideal)) (x7 : (⟨S1024, .f32⟩ : BufTy).Contents (Elt Ideal)) :
    val_main_v17 (F := Ideal) x0 x1 x2 x3 x4 x5 x6 x7
      = joint (val_main_v3 (F := Ideal) x0 x2 x3) (val_main_v7 (F := Ideal) x1 x4 x5) (transposed x6) x7 := by
  funext i
  rw [val_main_v17_apply, val_main_v14_apply, val_main_v16_apply, val_main_v15_apply]
  have hb : idx_main_v15 (idx_main_v16 i) = ix1 (i 3) := funext fun a => by
    match a with | ⟨0, _⟩ => rfl
  have hw : ∀ k : Fin 640, ridx_main_v14 i k = ix2 (i 3) k := fun k => funext fun a => by
    match a with | ⟨0, _⟩ => rfl | ⟨1, _⟩ => rfl
  have he : ∀ k : Fin 640, idx_main_v8 (idx_main_v10 (lidx_main_v14 i k)) = ix3 (i 0) (i 1) k := fun k => funext fun a => by
    match a with | ⟨0, _⟩ => rfl | ⟨1, _⟩ => rfl | ⟨2, _⟩ => rfl
  have hp : ∀ k : Fin 640, idx_main_v9 (idx_main_v11 (lidx_main_v14 i k)) = ix3 (i 0) (i 2) k := fun k => funext fun a => by
    match a with | ⟨0, _⟩ => rfl | ⟨1, _⟩ => rfl | ⟨2, _⟩ => rfl
  have hs : ∀ k : Fin 640, val_main_v13 (F := Ideal) x0 x1 x2 x3 x4 x5 (lidx_main_v14 i k)
      = Ideal.tanh (val_main_v3 (F := Ideal) x0 x2 x3 (ix3 (i 0) (i 1) k) + val_main_v7 (F := Ideal) x1 x4 x5 (ix3 (i 0) (i 2) k)) := fun k => by
    rw [val_main_v13_apply, val_main_v12_apply, val_main_v10_apply, val_main_v8_apply, val_main_v11_apply, val_main_v9_apply, he, hp]
    rfl
  simp only [hs, hw, hb]
  rfl

/-- So the reference's result is the joint stage of the two projections against the transposed weights. -/
theorem ref_eq (x0 : (⟨S4x256x512, .f32⟩ : BufTy).Contents (Elt Ideal)) (x1 : (⟨S4x64x512, .f32⟩ : BufTy).Contents (Elt Ideal))
    (x2 : (⟨S640x512, .f32⟩ : BufTy).Contents (Elt Ideal)) (x3 : (⟨S640, .f32⟩ : BufTy).Contents (Elt Ideal))
    (x4 : (⟨S640x512, .f32⟩ : BufTy).Contents (Elt Ideal)) (x5 : (⟨S640, .f32⟩ : BufTy).Contents (Elt Ideal))
    (x6 : (⟨S1024x640, .f32⟩ : BufTy).Contents (Elt Ideal)) (x7 : (⟨S1024, .f32⟩ : BufTy).Contents (Elt Ideal)) :
    val_main_v17 (F := Ideal) x0 x1 x2 x3 x4 x5 x6 x7
      = joint (encProj x0 (transposed x2) x3) (predProj x1 (transposed x4) x5) (transposed x6) x7 := by
  rw [out_eq, enc_eq, pred_eq]

end Cert.ReferenceIdeal.Stages

end
-- ==== Proof.lean ====
/-
  The certificate of the RNN-T joiner kernel against its jnp reference, over the extended reals.

  Both programs compute logits[b, t, u, v] = Σ_j tanh (e[b, t, j] + p[b, u, j]) · out_w[v, j] + out_b[v] with
  e[b, t, j] = Σ_d enc[b, t, d] · enc_w[j, d] + enc_b[j] and p[b, u, j] = Σ_d pred[b, u, d] · pred_w[j, d] + pred_b[j].
  The kernel transposes the three weight matrices on the host, runs the two projections as two pallas_calls (one
  batch entry per grid point) and the joint stage as a third (one batch entry and 32 encoder rows per grid point); its
  changes of float format are the identity at the ideal values and its products into a zero accumulator are plain
  sums, so each region's result array is the same sum the reference's dot_general is, term by term and in the same
  order: no law of the extended reals beyond reading the sums at an index is needed, and the precondition is not used.

  The frames of the two kernel programs are the generated ones; the reference's frame is its generated run with the
  result dropped. The kernel's value is read off a second call of the launch theorem that keeps the result array in
  the post (NamedRun), region by region (EncRegion, PredRegion, JointRegion) over the contents each region finds
  (Boundaries), composed in Result; the reference's value is its generated run read stage by stage (RefStages).
-/
import proofs.«172515_j83863531421968_1_alg».proof.Defs
import proofs.«172515_j83863531421968_1_alg».proof.Proof.Gen.Kernel
import proofs.«172515_j83863531421968_1_alg».proof.Proof.Gen.Kernel.Skeleton
import proofs.«172515_j83863531421968_1_alg».proof.Proof.Gen.Kernel.Launch
import proofs.«172515_j83863531421968_1_alg».proof.Proof.Gen.Kernel.Points
import proofs.«172515_j83863531421968_1_alg».proof.Proof.Gen.Kernel.Frame
import proofs.«172515_j83863531421968_1_alg».proof.Proof.Gen.KernelIdeal
import proofs.«172515_j83863531421968_1_alg».proof.Proof.Gen.KernelIdeal.Skeleton
import proofs.«172515_j83863531421968_1_alg».proof.Proof.Gen.KernelIdeal.Launch
import proofs.«172515_j83863531421968_1_alg».proof.Proof.Gen.KernelIdeal.Points
import proofs.«172515_j83863531421968_1_alg».proof.Proof.Gen.KernelIdeal.Frame
import proofs.«172515_j83863531421968_1_alg».proof.Proof.Gen.ReferenceIdeal
import proofs.«172515_j83863531421968_1_alg».proof.Proof.Gen.Pre_finite_inputs
import proofs.«172515_j83863531421968_1_alg».proof.Proof.Gen.ReferenceIdeal.Run
import proofs.«172515_j83863531421968_1_alg».proof.Proof.Gen.ReferenceIdeal.Read
import proofs.«172515_j83863531421968_1_alg».proof.Proof.NamedRun
import proofs.«172515_j83863531421968_1_alg».proof.Proof.Result
import proofs.«172515_j83863531421968_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with `logits` of those arguments in their
    result arrays: the kernel by its three regions, the reference by its eighteen host operations read back. -/
theorem algebraic : Cert.algebraic_KernelIdeal_ReferenceIdeal := by
  intro m ρ m' ρ' _ hagree
  refine ⟨fun c => Cert.KernelIdeal.Result.logits m c, ?_, ?_⟩
  · exact (θ_run Cert.KernelIdeal.defs _ _).mono
      (fun r h c => ⟨(h c).1.trans (Cert.KernelIdeal.Result.result_eq m ρ c), (h c).2⟩)
      (Cert.KernelIdeal.NamedRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.Stages.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
